-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x3 : Shape := ⟨2, ![512, 3]⟩
abbrev S3 : Shape := ⟨1, ![3]⟩
abbrev S3x7 : Shape := ⟨2, ![3, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_
  bcast_S_S3x7 : S_.BroadcastsInDim S3x7 (![] : Fin 0 → Fin S3x7.rank)
  reducesTo_S3x7_S_d0_1 : S3x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S3x7 1) : IVec S_ 1 :=
  let main_c_5 : IVec S_ 1 := constantI S_ 1 1#1
  let main_v17 : IVec S_ 1 := (fun x v => Host.reduce IntOp.andi x v reducesTo_S3x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x3 .f32) (main_arg3 : FVec F S3 .f32) (main_arg4 : FVec F S3x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x3 .f32 := Host.absf main_arg2
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x7 .f32 := Host.absf main_arg4
  let main_cst_4 : FVec F S_ .f32 := constant S_ .f32 0x7F800000#32
  let main_v15 : FVec F S3x7 .f32 := broadcastInDim S3x7 ![] bcast_S_S3x7 main_cst_4
  let main_v16 : IVec S3x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x3 : Shape := ⟨2, ![512, 3]⟩
abbrev S3 : Shape := ⟨1, ![3]⟩
abbrev S3x7 : Shape := ⟨2, ![3, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x3 : Shape := ⟨2, ![100000, 3]⟩
abbrev S2000x512 : Shape := ⟨2, ![2000, 512]⟩
abbrev S2000x3 : Shape := ⟨2, ![2000, 3]⟩
abbrev S3300000x3 : Shape := ⟨2, ![3300000, 3]⟩
abbrev S1x3 : Shape := ⟨2, ![1, 3]⟩
abbrev S1x7 : Shape := ⟨2, ![1, 7]⟩
abbrev S100000x7 : Shape := ⟨2, ![100000, 7]⟩
abbrev S2000x7 : Shape := ⟨2, ![2000, 7]⟩

abbrev nBuf : Space → Nat
  | .hbm => 67
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x3, .f32⟩
  | .hbm, ⟨3, _⟩ => ⟨S3, .f32⟩
  | .hbm, ⟨4, _⟩ => ⟨S3x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x3, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x3, .f32⟩
  | .hbm, ⟨56, _⟩ => ⟨S3300000x1, .f32⟩
  | .hbm, ⟨57, _⟩ => ⟨S3300000x3, .f32⟩
  | .hbm, ⟨58, _⟩ => ⟨S3300000x3, .f32⟩
  | .hbm, ⟨59, _⟩ => ⟨S_, .f32⟩
  | .hbm, ⟨60, _⟩ => ⟨S100000x3, .f32⟩
  | .hbm, ⟨61, _⟩ => ⟨S3300000x1, .i32⟩
  | .hbm, ⟨62, _⟩ => ⟨S100000x3, .f32⟩
  | .hbm, ⟨63, _⟩ => ⟨S1x3, .f32⟩
  | .hbm, ⟨64, _⟩ => ⟨S1x7, .f32⟩
  | .hbm, ⟨65, _⟩ => ⟨S100000x3, .f32⟩
  | .hbm, ⟨66, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x3, .f32⟩
  | .local _ .vmem, ⟨3, _⟩ => ⟨S2000x3, .f32⟩
  | .local _ .vmem, ⟨4, _⟩ => ⟨S2000x3, .f32⟩
  | .local _ .vmem, ⟨5, _⟩ => ⟨S2000x3, .f32⟩
  | .local _ .vmem, ⟨6, _⟩ => ⟨S2000x3, .f32⟩
  | .local _ .vmem, ⟨7, _⟩ => ⟨S1x3, .f32⟩
  | .local _ .vmem, ⟨8, _⟩ => ⟨S3x7, .f32⟩
  | .local _ .vmem, ⟨9, _⟩ => ⟨S1x7, .f32⟩
  | .local _ .vmem, ⟨10, _⟩ => ⟨S2000x3, .f32⟩
  | .local _ .vmem, ⟨11, _⟩ => ⟨S2000x3, .f32⟩
  | .local _ .vmem, ⟨12, _⟩ => ⟨S2000x7, .f32⟩
  | .local _ .vmem, ⟨13, _⟩ => ⟨S2000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x3_S512x3_0_0 : ∀ a, (![0, 0] : Fin 2 → Nat) a + S512x3.size a ≤ S512x3.size a
  h_S512x3 : 0 < S512x3.numel
  inb_S2000x3_S2000x3_0_0 : ∀ a, (![0, 0] : Fin 2 → Nat) a + S2000x3.size a ≤ S2000x3.size a
  h_S2000x3 : 0 < S2000x3.numel
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  shapeCasts_S3_S1x3 : S3.ShapeCasts S1x3
  shapeCasts_S7_S1x7 : S7.ShapeCasts S1x7
  shapeCasts_S2000x3_S2000x3 : S2000x3.ShapeCasts S2000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S3x7_S3x7_0_0 : ∀ a, (![0, 0] : Fin 2 → Nat) a + S3x7.size a ≤ S3x7.size a
  h_S3x7 : 0 < S3x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  inb_S2000x7_S2000x7_0_0 : ∀ a, (![0, 0] : Fin 2 → Nat) a + S2000x7.size a ≤ S2000x7.size a
  h_S2000x7 : 0 < S2000x7.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x3_S2000x3_1_0_0_1_n_n_wf : DotDims.WF S2000x512 S512x3 S2000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S2000x3_S3x7_S2000x7_1_0_0_1_n_n_wf : DotDims.WF S2000x3 S3x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S512x3.size a
  hwx0_1 : ∀ i : grid0.Coords, EltTy.bits .f32 = 32 ∨ (Rect.block (s := S512x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S100000x3.size a
  hwx0_2 : ∀ i : grid0.Coords, EltTy.bits .f32 = 32 ∨ (Rect.block (s := S100000x3) S2000x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x3.size a ≤ S100000x3.size a
  hwx1_0 : ∀ i : grid1.Coords, EltTy.bits .f32 = 32 ∨ (Rect.block (s := S100000x3) S2000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x3.size a ≤ S1x3.size a
  hwx1_1 : ∀ i : grid1.Coords, EltTy.bits .f32 = 32 ∨ (Rect.block (s := S1x3) S1x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x7.size a ≤ S3x7.size a
  hwx1_2 : ∀ i : grid1.Coords, EltTy.bits .f32 = 32 ∨ (Rect.block (s := S3x7) S3x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x7.size a ≤ S1x7.size a
  hwx1_3 : ∀ i : grid1.Coords, EltTy.bits .f32 = 32 ∨ (Rect.block (s := S1x7) S1x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x3.size a ≤ S100000x3.size a
  hwx1_4 : ∀ i : grid1.Coords, EltTy.bits .f32 = 32 ∨ (Rect.block (s := S100000x3) S2000x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x7.size a ≤ S100000x7.size a
  hwx1_5 : ∀ i : grid1.Coords, EltTy.bits .f32 = 32 ∨ (Rect.block (s := S100000x7) S2000x7.size (cc1_transform_5 i) (hinb1_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x3_S2000x3_1_0_0_1_n_n : DotDims S2000x512 S512x3 S2000x3 where
  lhsContracting := [1]
  rhsContracting := [0]
  lhsNonContracting := [0]
  rhsNonContracting := [1]
  lhsBatch := []
  rhsBatch := []
  wf := dot_S2000x512_S512x3_S2000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S2000x3_S3x7_S2000x7_1_0_0_1_n_n : DotDims S2000x3 S3x7 S2000x7 where
  lhsContracting := [1]
  rhsContracting := [0]
  lhsNonContracting := [0]
  rhsNonContracting := [1]
  lhsBatch := []
  rhsBatch := []
  wf := dot_S2000x3_S3x7_S2000x7_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S2000x3.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S2000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x3 : Shape := ⟨2, ![512, 3]⟩
abbrev S3 : Shape := ⟨1, ![3]⟩
abbrev S3x7 : Shape := ⟨2, ![3, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x3 : Shape := ⟨2, ![100000, 3]⟩
abbrev S3300000x3 : Shape := ⟨2, ![3300000, 3]⟩
abbrev S1x3 : Shape := ⟨2, ![1, 3]⟩
abbrev S100000x7 : Shape := ⟨2, ![100000, 7]⟩
abbrev S1x7 : Shape := ⟨2, ![1, 7]⟩

abbrev nBuf : Space → Nat
  | .hbm => 73
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x3, .f32⟩
  | .hbm, ⟨3, _⟩ => ⟨S3, .f32⟩
  | .hbm, ⟨4, _⟩ => ⟨S3x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x3, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x3, .f32⟩
  | .hbm, ⟨56, _⟩ => ⟨S3300000x1, .f32⟩
  | .hbm, ⟨57, _⟩ => ⟨S3300000x3, .f32⟩
  | .hbm, ⟨58, _⟩ => ⟨S3300000x3, .f32⟩
  | .hbm, ⟨59, _⟩ => ⟨S_, .f32⟩
  | .hbm, ⟨60, _⟩ => ⟨S100000x3, .f32⟩
  | .hbm, ⟨61, _⟩ => ⟨S3300000x1, .i32⟩
  | .hbm, ⟨62, _⟩ => ⟨S100000x3, .f32⟩
  | .hbm, ⟨63, _⟩ => ⟨S1x3, .f32⟩
  | .hbm, ⟨64, _⟩ => ⟨S100000x3, .f32⟩
  | .hbm, ⟨65, _⟩ => ⟨S100000x3, .f32⟩
  | .hbm, ⟨66, _⟩ => ⟨S_, .f32⟩
  | .hbm, ⟨67, _⟩ => ⟨S100000x3, .f32⟩
  | .hbm, ⟨68, _⟩ => ⟨S100000x3, .f32⟩
  | .hbm, ⟨69, _⟩ => ⟨S100000x7, .f32⟩
  | .hbm, ⟨70, _⟩ => ⟨S1x7, .f32⟩
  | .hbm, ⟨71, _⟩ => ⟨S100000x7, .f32⟩
  | .hbm, ⟨72, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x3_S100000x3_1_0_0_1_n_n_wf : DotDims.WF S100000x512 S512x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S100000x3_S3x7_S100000x7_1_0_0_1_n_n_wf : DotDims.WF S100000x3 S3x7 S100000x7 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x3_S100000x3_1_0_0_1_n_n : DotDims S100000x512 S512x3 S100000x3 where
  lhsContracting := [1]
  rhsContracting := [0]
  lhsNonContracting := [0]
  rhsNonContracting := [1]
  lhsBatch := []
  rhsBatch := []
  wf := dot_S100000x512_S512x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S100000x3_S3x7_S100000x7_1_0_0_1_n_n : DotDims S100000x3 S3x7 S100000x7 where
  lhsContracting := [1]
  rhsContracting := [0]
  lhsNonContracting := [0]
  rhsNonContracting := [1]
  lhsBatch := []
  rhsBatch := []
  wf := dot_S100000x3_S3x7_S100000x7_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.Payloads.lean ====
/-
  The two kernel bodies' arithmetic read at an index, at the extended reals. The first body multiplies a block of
  2000 rows of x by the 512 × 3 weights: entry (p, q) is the sum over k of x[p, k] · W[k, q] (the change of float format
  before the product changes no entry, and the accumulator starts at zero). The second body adds the bias row to a
  block of 2000 aggregated rows and takes the maximum with zero, then multiplies the result by the 3 × 7 weights and adds
  the second bias row.
-/
import proofs.«120873_j31722628448491_1_alg».proof.Proof.Gen.KernelIdeal.Skeleton
import proofs.«120873_j31722628448491_1_alg».proof.Proof.LibDenseRows

noncomputable section

namespace Cert.KernelIdeal.Pay

open Cert.KernelIdeal Cert.KernelIdeal.Gen Idealize.ShloMosaic Idealize.ShloMosaic.ValueIdx Cert.LibDenseRows

/-- The first body's product at (p, q): the row p of the block against the column q of the weights. -/
theorem pay0_apply (x0 : Vec Ideal S2000x512 .f32) (x1 : Vec Ideal S512x3 .f32) (p : Fin 2000) (q : Fin 3) :
    k0_pay1 (F := Ideal) x0 x1 (ix2 p q) = ∑ k : Fin 512, x0 (ix2 p k) * x1 (ix2 k q) := by
  unfold k0_pay1
  exact matmul_plain_zero_apply (R := 2000) (K := 512) (N := 3) none
    (truncf .bf16 x0 bitsLt_bf16_f32) (truncf .bf16 x1 bitsLt_bf16_f32) p q

/-- The rectified row: the aggregated entry plus the bias of its column, or zero if that is larger. -/
theorem pay1_apply (a : Vec Ideal S2000x3 .f32) (b : Vec Ideal S1x3 .f32) (p : Fin 2000) (q : Fin 3) :
    k1_pay1 (F := Ideal) a b (ix2 p q) = max (a (ix2 p q) + b (ix2 (0 : Fin 1) q)) zeroW := by
  unfold k1_pay1
  rw [maximumf_apply, addf_apply, shapeCast_self, shapeCast_self, broadcastTo_1b_ab_apply]
  rfl

/-- The classifier's entry (p, q): the rectified row p against column q of the 3 × 7 weights, plus the bias of column q. -/
theorem pay2_apply (a : Vec Ideal S2000x3 .f32) (b : Vec Ideal S1x3 .f32) (w : Vec Ideal S3x7 .f32) (bo : Vec Ideal S1x7 .f32)
    (p : Fin 2000) (q : Fin 7) :
    k1_pay2 (F := Ideal) a b w bo (ix2 p q)
      = (∑ k : Fin 3, k1_pay1 (F := Ideal) a b (ix2 p k) * w (ix2 k q)) + bo (ix2 (0 : Fin 1) q) := by
  unfold k1_pay2
  rw [addf_apply, shapeCast_self, broadcastTo_1b_ab_apply]
  congr 1
  exact matmul_plain_zero_apply (R := 2000) (K := 3) (N := 7) none
    (truncf .bf16 (k1_pay1 a b) bitsLt_bf16_f32) (truncf .bf16 w bitsLt_bf16_f32) p q

end Cert.KernelIdeal.Pay

end
-- ==== Proof.Spec.lean ====
/-
  The three dense stages of the layer as functions of whole arrays, index by index, at the extended reals: the
  product x·W (100000 × 512 times 512 × 3); the rectified layer max (agg + b, 0) of an aggregated 100000 × 3 array and a
  bias given as a one-row matrix; and the classifier h·W' + b' (100000 × 3 times 3 × 7, the second bias again a one-row
  matrix), with h the rectified layer.
-/
import proofs.«120873_j31722628448491_1_alg».proof.Proof.LibDenseRows

noncomputable section

namespace Cert.Gcn.Spec

open Idealize.ShloMosaic Idealize.ShloMosaic.ValueIdx Cert.LibDenseRows

/-- The product x·W as one function of the two arrays, index by index. -/
def xwOf (x : (Sh2 100000 512).Idx → EReal) (w : (Sh2 512 3).Idx → EReal) : (Sh2 100000 3).Idx → EReal :=
  fun i => ∑ k : Fin 512, x (ix2 (n0 := 100000) (n1 := 512) ⟨(i 0).val, (i 0).isLt⟩ k) * w (ix2 (n0 := 512) (n1 := 3) k ⟨(i 1).val, (i 1).isLt⟩)

/-- The rectified layer as one function of the aggregated array and the bias row, index by index. -/
def hOf (A : (Sh2 100000 3).Idx → EReal) (b : (Sh2 1 3).Idx → EReal) : (Sh2 100000 3).Idx → EReal :=
  fun i => max (A i + b (ix2 (n0 := 1) (n1 := 3) 0 ⟨(i 1).val, (i 1).isLt⟩)) zeroW

/-- The classifier as one function of the aggregated array, the two bias rows and the weights, index by index. -/
def zOf (A : (Sh2 100000 3).Idx → EReal) (b : (Sh2 1 3).Idx → EReal) (w : (Sh2 3 7).Idx → EReal) (bo : (Sh2 1 7).Idx → EReal) :
    (Sh2 100000 7).Idx → EReal :=
  fun i => (∑ k : Fin 3, hOf A b (ix2 (n0 := 100000) (n1 := 3) ⟨(i 0).val, (i 0).isLt⟩ k) * w (ix2 (n0 := 3) (n1 := 7) k ⟨(i 1).val, (i 1).isLt⟩))
    + bo (ix2 (n0 := 1) (n1 := 7) 0 ⟨(i 1).val, (i 1).isLt⟩)

end Cert.Gcn.Spec

end
-- ==== Proof.KVal0.lean ====
/-
  What the first pallas_call leaves in its result array. The grid has 50 points; point t reads rows 2000·t … 2000·t + 1999
  of x (all 512 columns) and the whole 512 × 3 weight matrix, and writes back rows 2000·t … 2000·t + 1999 of the
  100000 × 3 result. Entry (p, q) of that block is the sum over k of x[2000·t + p, k] · W[k, q], so the 50 blocks are
  the restrictions of ONE function of the two arrays, x·W, and they tile the result: row r is in block r / 2000.
-/
import proofs.«120873_j31722628448491_1_alg».proof.Proof.Gen.KernelIdeal.Frame
import proofs.«120873_j31722628448491_1_alg».proof.Proof.Payloads
import proofs.«120873_j31722628448491_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.LibDenseRows Cert.KernelIdeal.Pay Cert.Gcn.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps of region 0, decided over the grid: the x window and the result window move down the rows
    with the point, the weight window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of x is row 2000·t + p of x. -/
theorem xblk_apply (c : Dev nD) (t : Fin cfg0.N) (p : Fin 2000) (k : Fin 512) (r : Fin 100000) (hr : r.val = t.val * 2000 + p.val) :
    (iblk0 V c 0 t : Vec Ideal S2000x512 .f32) (ix2 p k) = (V c main_arg0 : S100000x512.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- Every point's block of the weights is the whole matrix. -/
theorem wblk_apply (c : Dev nD) (t : Fin cfg0.N) (k : Fin 512) (q : Fin 3) :
    (iblk0 V c 1 t : Vec Ideal S512x3 .f32) (ix2 k q) = (V c main_arg2 : S512x3.Idx → EReal) (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e2]; omega
  | ⟨1, _⟩ => show win0_1.index t (1 : Fin 2) * 3 + 1 * q.val = q.val; rw [e3]; omega

/-- WHAT POINT t WRITES BACK is block t of x·W of the arrays as the region finds them. -/
theorem flushed0_eq (c : Dev nD) (t : Fin cfg0.N) :
    (dat0 V c).flushed 2 t = ((cfg0.win 2).blk t).view.read (Elt Ideal) (xwOf (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x3) hz]
  obtain ⟨-, -, -, -, e4, e5⟩ := idx_facts0 t
  funext j
  obtain ⟨p, q, rfl⟩ : ∃ (p : Fin 2000) (q : Fin 3), j = ix2 p q := ⟨j 0, j 1, eq_ix2 j⟩
  have ht : t.val < 50 := lt_of_lt_of_eq t.isLt N_0
  have hr : t.val * 2000 + p.val < 100000 := by have := p.isLt; omega
  have hidx : ((cfg0.win 2).blk t).view.emb (ix2 p q) = (ix2 (n0 := 100000) (n1 := 3) ⟨t.val * 2000 + p.val, hr⟩ q) := by
    funext a
    apply Fin.ext
    match a with
    | ⟨0, _⟩ => show win0_2.index t (0 : Fin 2) * 2000 + 1 * p.val = t.val * 2000 + p.val; rw [e4]; omega
    | ⟨1, _⟩ => show win0_2.index t (1 : Fin 2) * 3 + 1 * q.val = q.val; rw [e5]; omega
  refine (pay0_apply (iblk0 V c 0 t) (iblk0 V c 1 t) p q).trans ?_
  rw [View.read_apply, hidx]
  unfold xwOf
  refine Finset.sum_congr rfl fun k _ => ?_
  rw [xblk_apply V c t p k ⟨t.val * 2000 + p.val, hr⟩ rfl, wblk_apply V c t k q]

/-- An index of the result array is in point t's block iff each coordinate is in the block's range on its axis. -/
theorem mem_blk0 (t : Fin cfg0.N) (i : S100000x3.Idx) :
    i ∈ ((cfg0.win 2).blk t).view.set ↔ ∀ a : Fin 2, win0_2.index t a * S2000x3.size a ≤ (i a).val ∧ (i a).val < win0_2.index t a * S2000x3.size a + S2000x3.size a := by
  show i ∈ ((View.whole main_v30).slice (win0_2.rect t)).set ↔ _
  rw [View.set_slice_whole, Rect.mem_set_unit]
  exact Iff.rfl

/-- The 50 blocks tile the result: row r is in the block of point r / 2000. -/
theorem cover0 (i : S100000x3.Idx) : ∃ t : Fin cfg0.N, (cfg0.win 2).flush t = true ∧ i ∈ ((cfg0.win 2).blk t).view.set := by
  have hi0 : (i 0).val < 100000 := (i 0).isLt
  have hi1 : (i 1).val < 3 := (i 1).isLt
  have hN : cfg0.N = 50 := N_0
  let t : Fin cfg0.N := ⟨(i 0).val / 2000, by rw [hN]; omega⟩
  obtain ⟨-, -, -, -, e4, e5⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e4]; show (i 0).val / 2000 * 2000 ≤ (i 0).val ∧ (i 0).val < (i 0).val / 2000 * 2000 + 2000; omega
  | ⟨1, _⟩ =>
    show win0_2.index t (1 : Fin 2) * 3 ≤ (i 1).val ∧ (i 1).val < win0_2.index t (1 : Fin 2) * 3 + 3
    rw [e5]; omega

/-- THE RESULT ARRAY of region 0 after its run: x·W of the arrays as the region finds them. -/
theorem final0 (c : Dev nD) : (dat0 V c).arrAt 2 cfg0.N = xwOf (V c main_arg0) (V c main_arg2) :=
  (dat0 V c).arrAt_eq_of_cover 2 (xwOf (V c main_arg0) (V c main_arg2)) (fun t _ => flushed0_eq V c t) cover0

end Cert.KernelIdeal.Val

end
-- ==== Proof.KVal1.lean ====
/-
  What the second pallas_call leaves in its two result arrays. The grid has 50 points; point t reads rows
  2000·t … 2000·t + 1999 of the aggregated 100000 × 3 array, and the whole bias row (1 × 3), the whole 3 × 7 weights and
  the whole second bias row (1 × 7). It writes back rows 2000·t … 2000·t + 1999 of h (100000 × 3) and of z (100000 × 7):
  h[r, q] = max (agg[r, q] + b[0, q], 0) and z[r, q] = Σ_k h[r, k] · W[k, q] + b'[0, q]. Both are restrictions of ONE
  function of the arrays per result, and the 50 blocks tile each result: row r is in block r / 2000.
-/
import proofs.«120873_j31722628448491_1_alg».proof.Proof.Gen.KernelIdeal.Frame
import proofs.«120873_j31722628448491_1_alg».proof.Proof.Payloads
import proofs.«120873_j31722628448491_1_alg».proof.Proof.Spec
import Idealize.ShloMosaic.Lib.Pipeline.Value

set_option maxRecDepth 16384

noncomputable section

namespace Cert.KernelIdeal.Val1

open Cert.KernelIdeal Cert.KernelIdeal.Gen Idealize.ShloMosaic Idealize.ShloMosaic.TcCoe Idealize.SL.Sem
open Idealize.ShloMosaic.ValueIdx Cert.LibDenseRows Cert.KernelIdeal.Pay Cert.Gcn.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps of region 1, decided over the grid: the aggregated window and the two result windows move
    down the rows with the point, the other three stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of point t's block of the aggregated array is its row 2000·t + p. -/
theorem ablk_apply (c : Dev nD) (t : Fin cfg1.N) (p : Fin 2000) (q : Fin 3) (r : Fin 100000) (hr : r.val = t.val * 2000 + p.val) :
    (iblk1 V c 0 t : Vec Ideal S2000x3 .f32) (ix2 p q) = (V c main_v43 : S100000x3.Idx → EReal) (ix2 r q) := by
  obtain ⟨e0, e1, -⟩ := idx_facts1 t
  unfold iblk1
  rw [View.read_apply]
  show V c main_v43 _ = V c main_v43 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 3 + 1 * q.val = q.val; rw [e1]; omega

/-- Every point's block of the bias row is the whole row. -/
theorem bblk_apply (c : Dev nD) (t : Fin cfg1.N) (u : Fin 1) (q : Fin 3) :
    (iblk1 V c 1 t : Vec Ideal S1x3 .f32) (ix2 u q) = (V c main_v44 : S1x3.Idx → EReal) (ix2 u q) := by
  obtain ⟨-, -, e2, e3, -⟩ := idx_facts1 t
  unfold iblk1
  rw [View.read_apply]
  show V c main_v44 _ = V c main_v44 _
  congr 1
  funext a
  apply Fin.ext
  match a with
  | ⟨0, _⟩ => show win1_1.index t (0 : Fin 2) * 1 + 1 * u.val = u.val; rw [e2]; omega
  | ⟨1, _⟩ => show win1_1.index t (1 : Fin 2) * 3 + 1 * q.val = q.val; rw [e3]; omega

/-- Every point's block of the classifier's weights is the whole matrix. -/
theorem wblk_apply (c : Dev nD) (t : Fin cfg1.N) (k : Fin 3) (q : Fin 7) :
    (iblk1 V c 2 t : Vec Ideal S3x7 .f32) (ix2 k q) = (V c main_arg4 : S3x7.Idx → EReal) (ix2 k q) := by
  obtain ⟨-, -, -, -, e4, e5, -⟩ := idx_facts1 t
  unfold iblk1
  rw [View.read_apply]
  show V c main_arg4 _ = V c main_arg4 _
  congr 1
  funext a
  apply Fin.ext
  match a with
  | ⟨0, _⟩ => show win1_2.index t (0 : Fin 2) * 3 + 1 * k.val = k.val; rw [e4]; omega
  | ⟨1, _⟩ => show win1_2.index t (1 : Fin 2) * 7 + 1 * q.val = q.val; rw [e5]; omega

/-- Every point's block of the second bias row is the whole row. -/
theorem boblk_apply (c : Dev nD) (t : Fin cfg1.N) (u : Fin 1) (q : Fin 7) :
    (iblk1 V c 3 t : Vec Ideal S1x7 .f32) (ix2 u q) = (V c main_v45 : S1x7.Idx → EReal) (ix2 u q) := by
  obtain ⟨-, -, -, -, -, -, e6, e7, -⟩ := idx_facts1 t
  unfold iblk1
  rw [View.read_apply]
  show V c main_v45 _ = V c main_v45 _
  congr 1
  funext a
  apply Fin.ext
  match a with
  | ⟨0, _⟩ => show win1_3.index t (0 : Fin 2) * 1 + 1 * u.val = u.val; rw [e6]; omega
  | ⟨1, _⟩ => show win1_3.index t (1 : Fin 2) * 7 + 1 * q.val = q.val; rw [e7]; omega

/-- The rectified block of point t at (p, q) is the rectified layer at row 2000·t + p. -/
theorem hblk_apply (c : Dev nD) (t : Fin cfg1.N) (p : Fin 2000) (q : Fin 3) (r : Fin 100000) (hr : r.val = t.val * 2000 + p.val) :
    k1_pay1 (F := Ideal) (iblk1 V c 0 t) (iblk1 V c 1 t) (ix2 p q) = hOf (V c main_v43) (V c main_v44) (ix2 r q) := by
  refine (pay1_apply (iblk1 V c 0 t) (iblk1 V c 1 t) p q).trans ?_
  rw [ablk_apply V c t p q r hr, bblk_apply V c t 0 q]
  rfl

/-- WHAT POINT t WRITES BACK to h is block t of the rectified layer of the arrays as the region finds them. -/
theorem flushed1_4_eq (c : Dev nD) (t : Fin cfg1.N) :
    (dat1 V c).flushed 4 t = ((cfg1.win 4).blk t).view.read (Elt Ideal) (hOf (V c main_v43) (V c main_v44)) := by
  show (cfg1.win 4).cut (grid1.coords t) ((dat1 V c).after 4 t) = _
  rw [after1_4]
  unfold out1_4
  rw [View.canon_unit_zero hz]
  simp only [View.ld_unit_zero (S := S2000x3) hz, View.ld_unit_zero (S := S1x3) hz]
  obtain ⟨-, -, -, -, -, -, -, -, e8, e9, -⟩ := idx_facts1 t
  funext j
  obtain ⟨p, q, rfl⟩ : ∃ (p : Fin 2000) (q : Fin 3), j = ix2 p q := ⟨j 0, j 1, eq_ix2 j⟩
  have ht : t.val < 50 := lt_of_lt_of_eq t.isLt N_1
  have hr : t.val * 2000 + p.val < 100000 := by have := p.isLt; omega
  have hidx : ((cfg1.win 4).blk t).view.emb (ix2 p q) = (ix2 (n0 := 100000) (n1 := 3) ⟨t.val * 2000 + p.val, hr⟩ q) := by
    funext a
    apply Fin.ext
    match a with
    | ⟨0, _⟩ => show win1_4.index t (0 : Fin 2) * 2000 + 1 * p.val = t.val * 2000 + p.val; rw [e8]; omega
    | ⟨1, _⟩ => show win1_4.index t (1 : Fin 2) * 3 + 1 * q.val = q.val; rw [e9]; omega
  refine (hblk_apply V c t p q ⟨t.val * 2000 + p.val, hr⟩ rfl).trans ?_
  rw [View.read_apply, hidx]
  rfl

/-- WHAT POINT t WRITES BACK to z is block t of the classifier of the arrays as the region finds them. -/
theorem flushed1_5_eq (c : Dev nD) (t : Fin cfg1.N) :
    (dat1 V c).flushed 5 t = ((cfg1.win 5).blk t).view.read (Elt Ideal) (zOf (V c main_v43) (V c main_v44) (V c main_arg4) (V c main_v45)) := by
  show (cfg1.win 5).cut (grid1.coords t) ((dat1 V c).after 5 t) = _
  rw [after1_5]
  unfold out1_5
  rw [View.canon_unit_zero hz]
  simp only [View.ld_unit_zero (S := S2000x3) hz, View.ld_unit_zero (S := S1x3) hz, View.ld_unit_zero (S := S3x7) hz, View.ld_unit_zero (S := S1x7) hz]
  obtain ⟨-, -, -, -, -, -, -, -, -, -, e10, e11⟩ := idx_facts1 t
  funext j
  obtain ⟨p, q, rfl⟩ : ∃ (p : Fin 2000) (q : Fin 7), j = ix2 p q := ⟨j 0, j 1, eq_ix2 j⟩
  have ht : t.val < 50 := lt_of_lt_of_eq t.isLt N_1
  have hr : t.val * 2000 + p.val < 100000 := by have := p.isLt; omega
  have hidx : ((cfg1.win 5).blk t).view.emb (ix2 p q) = (ix2 (n0 := 100000) (n1 := 7) ⟨t.val * 2000 + p.val, hr⟩ q) := by
    funext a
    apply Fin.ext
    match a with
    | ⟨0, _⟩ => show win1_5.index t (0 : Fin 2) * 2000 + 1 * p.val = t.val * 2000 + p.val; rw [e10]; omega
    | ⟨1, _⟩ => show win1_5.index t (1 : Fin 2) * 7 + 1 * q.val = q.val; rw [e11]; omega
  refine (pay2_apply (iblk1 V c 0 t) (iblk1 V c 1 t) (iblk1 V c 2 t) (iblk1 V c 3 t) p q).trans ?_
  rw [View.read_apply, hidx, boblk_apply V c t 0 q]
  unfold zOf
  refine congrArg (· + _) ?_
  refine Finset.sum_congr rfl fun k _ => ?_
  rw [hblk_apply V c t p k ⟨t.val * 2000 + p.val, hr⟩ rfl, wblk_apply V c t k q]

/-- An index of h is in point t's block iff each coordinate is in the block's range on its axis. -/
theorem mem_blk4 (t : Fin cfg1.N) (i : S100000x3.Idx) :
    i ∈ ((cfg1.win 4).blk t).view.set ↔ ∀ a : Fin 2, win1_4.index t a * S2000x3.size a ≤ (i a).val ∧ (i a).val < win1_4.index t a * S2000x3.size a + S2000x3.size a := by
  show i ∈ ((View.whole main_v46_0).slice (win1_4.rect t)).set ↔ _
  rw [View.set_slice_whole, Rect.mem_set_unit]
  exact Iff.rfl

/-- An index of z is in point t's block iff each coordinate is in the block's range on its axis. -/
theorem mem_blk5 (t : Fin cfg1.N) (i : S100000x7.Idx) :
    i ∈ ((cfg1.win 5).blk t).view.set ↔ ∀ a : Fin 2, win1_5.index t a * S2000x7.size a ≤ (i a).val ∧ (i a).val < win1_5.index t a * S2000x7.size a + S2000x7.size a := by
  show i ∈ ((View.whole main_v46_1).slice (win1_5.rect t)).set ↔ _
  rw [View.set_slice_whole, Rect.mem_set_unit]
  exact Iff.rfl

/-- The 50 blocks tile h: row r is in the block of point r / 2000. -/
theorem cover4 (i : S100000x3.Idx) : ∃ t : Fin cfg1.N, (cfg1.win 4).flush t = true ∧ i ∈ ((cfg1.win 4).blk t).view.set := by
  have hi0 : (i 0).val < 100000 := (i 0).isLt
  have hi1 : (i 1).val < 3 := (i 1).isLt
  have hN : cfg1.N = 50 := N_1
  let t : Fin cfg1.N := ⟨(i 0).val / 2000, by rw [hN]; omega⟩
  obtain ⟨-, -, -, -, -, -, -, -, e8, e9, -⟩ := idx_facts1 t
  refine ⟨t, flush1_4 t, ?_⟩
  rw [mem_blk4]
  intro a
  match a with
  | ⟨0, _⟩ =>
    show win1_4.index t (0 : Fin 2) * 2000 ≤ (i 0).val ∧ (i 0).val < win1_4.index t (0 : Fin 2) * 2000 + 2000
    rw [e8]; show (i 0).val / 2000 * 2000 ≤ (i 0).val ∧ (i 0).val < (i 0).val / 2000 * 2000 + 2000; omega
  | ⟨1, _⟩ =>
    show win1_4.index t (1 : Fin 2) * 3 ≤ (i 1).val ∧ (i 1).val < win1_4.index t (1 : Fin 2) * 3 + 3
    rw [e9]; omega

/-- The 50 blocks tile z: row r is in the block of point r / 2000. -/
theorem cover5 (i : S100000x7.Idx) : ∃ t : Fin cfg1.N, (cfg1.win 5).flush t = true ∧ i ∈ ((cfg1.win 5).blk t).view.set := by
  have hi0 : (i 0).val < 100000 := (i 0).isLt
  have hi1 : (i 1).val < 7 := (i 1).isLt
  have hN : cfg1.N = 50 := N_1
  let t : Fin cfg1.N := ⟨(i 0).val / 2000, by rw [hN]; omega⟩
  obtain ⟨-, -, -, -, -, -, -, -, -, -, e10, e11⟩ := idx_facts1 t
  refine ⟨t, flush1_5 t, ?_⟩
  rw [mem_blk5]
  intro a
  match a with
  | ⟨0, _⟩ =>
    show win1_5.index t (0 : Fin 2) * 2000 ≤ (i 0).val ∧ (i 0).val < win1_5.index t (0 : Fin 2) * 2000 + 2000
    rw [e10]; show (i 0).val / 2000 * 2000 ≤ (i 0).val ∧ (i 0).val < (i 0).val / 2000 * 2000 + 2000; omega
  | ⟨1, _⟩ =>
    show win1_5.index t (1 : Fin 2) * 7 ≤ (i 1).val ∧ (i 1).val < win1_5.index t (1 : Fin 2) * 7 + 7
    rw [e11]; omega

/-- THE ARRAY h after region 1's run: the rectified layer of the arrays as the region finds them. -/
theorem final4 (c : Dev nD) : (dat1 V c).arrAt 4 cfg1.N = hOf (V c main_v43) (V c main_v44) :=
  (dat1 V c).arrAt_eq_of_cover 4 (hOf (V c main_v43) (V c main_v44)) (fun t _ => flushed1_4_eq V c t) cover4

/-- THE ARRAY z after region 1's run: the classifier of the arrays as the region finds them. -/
theorem final5 (c : Dev nD) : (dat1 V c).arrAt 5 cfg1.N = zOf (V c main_v43) (V c main_v44) (V c main_arg4) (V c main_v45) :=
  (dat1 V c).arrAt_eq_of_cover 5 (zOf (V c main_v43) (V c main_v44) (V c main_arg4) (V c main_v45)) (fun t _ => flushed1_5_eq V c t) cover5

end Cert.KernelIdeal.Val1

end
-- ==== Proof.Agg.lean ====
/-
  The sparse half of the layer, which both programs compute on the host by the same operations: with the self loops
  appended to the edge list, the degree of each target counts its incoming edges, each edge gets the weight
  deg[src]^(-1/2) · deg[dst]^(-1/2) (zero where the degree is not positive), and the aggregated array sums, over the edges
  into each target, the source's transformed feature row times the edge's weight. It is one function of the
  transformed features x·W and of the edge list; nothing below opens it.
-/
import proofs.«120873_j31722628448491_1_alg».proof.Proof.RefRead

noncomputable section

namespace Cert.Gcn

open Cert.ReferenceIdeal Cert.ReferenceIdeal.ReadP Idealize.ShloMosaic

variable {F : FTy → Type} [FloatOps F]

/-- The aggregation over the edges as a function of the transformed features and the edge list: the gather of the
    source rows, the product with the edge weights, the scatter-add into the target rows. -/
def aggOf (xw : (⟨S100000x3, .f32⟩ : BufTy).Contents (Elt F)) (e : (⟨S2x3200000, .i32⟩ : BufTy).Contents (Elt F)) :
    (⟨S100000x3, .f32⟩ : BufTy).Contents (Elt F) :=
  Host.scatterAdd scatter_S100000x3_S3300000x1_S3300000x3_1_0_0_1 (val_main_v41 (F := F)) (val_main_v42 (F := F) e)
    (mulf (Host.gather gather_S100000x3_S3300000x1_S3300000x3_1_0_n_n_0_1_13 xw (val_main_v36 (F := F) e)) (val_main_v39 (F := F) e))

/-- The reference's aggregated array is that function of its own product x·W. -/
theorem val_main_v43_eq (x0 : (⟨S100000x512, .f32⟩ : BufTy).Contents (Elt F)) (x1 : (⟨S2x3200000, .i32⟩ : BufTy).Contents (Elt F))
    (x2 : (⟨S512x3, .f32⟩ : BufTy).Contents (Elt F)) :
    val_main_v43 (F := F) x0 x1 x2 = aggOf (val_main_v30 (F := F) x0 x2) x1 := rfl

end Cert.Gcn

end
-- ==== Proof.KHost.lean ====
/-
  The host operations of the kernel's program around its two pallas_calls, read as values. Before the first call the
  program builds, from the edge list alone, the source and target index vectors (the self loops appended) and the edge
  weights; the first call reads x and the first weight matrix as launched. Between the calls it gathers the source rows
  of the first call's result, scales them by the edge weights and scatter-adds them into the target rows — the same
  operations as the reference's, so the aggregated array is the shared aggregation function of the first call's
  result and the edge list — and recasts the two bias vectors as one-row matrices. The second call reads those and the
  second weight matrix as launched.
-/
import proofs.«120873_j31722628448491_1_alg».proof.Proof.Gen.KernelIdeal.Frame
import proofs.«120873_j31722628448491_1_alg».proof.Proof.Agg

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What the first call finds -/

set_option maxHeartbeats 4000000 in
/-- The first call finds x as launched. -/
theorem V3_arg0 (c : Dev nD) : V3 m ρ c main_arg0 = m ((c : Thread nD τ).loc main_arg0) := by
  show StableHlo.after hostOps0_2 (W2 m ρ c) (Proc.devRef .tc main_arg0) = _
  after_results_simp

set_option maxHeartbeats 4000000 in
/-- The first call finds the first weight matrix as launched. -/
theorem V3_arg2 (c : Dev nD) : V3 m ρ c main_arg2 = m ((c : Thread nD τ).loc main_arg2) := by
  show StableHlo.after hostOps0_2 (W2 m ρ c) (Proc.devRef .tc main_arg2) = _
  after_results_simp

/-! ## The index vectors and the edge weights, from the edge list alone -/

set_option maxHeartbeats 4000000 in
/-- The source indices with the self loops appended. -/
theorem W3_v3 (c : Dev nD) :
    W3 m ρ c (Proc.devRef .tc main_v3) = Cert.ReferenceIdeal.ReadP.val_main_v3 (F := F) (m ((c : Thread nD τ).loc main_arg1)) := by
  show StableHlo.after hostOps0_2 (W2 m ρ c) (Proc.devRef .tc main_v3) = _
  after_results_simp
  rfl

set_option maxHeartbeats 4000000 in
/-- The target indices with the self loops appended. -/
theorem W3_v6 (c : Dev nD) :
    W3 m ρ c (Proc.devRef .tc main_v6) = Cert.ReferenceIdeal.ReadP.val_main_v6 (F := F) (m ((c : Thread nD τ).loc main_arg1)) := by
  show StableHlo.after hostOps0_2 (W2 m ρ c) (Proc.devRef .tc main_v6) = _
  after_results_simp
  rfl

set_option maxHeartbeats 4000000 in
/-- The edge weights deg[src]^(-1/2) · deg[dst]^(-1/2). -/
theorem W3_v29 (c : Dev nD) :
    W3 m ρ c (Proc.devRef .tc main_v29) = Cert.ReferenceIdeal.ReadP.val_main_v29 (F := F) (m ((c : Thread nD τ).loc main_arg1)) := by
  show StableHlo.after hostOps0_2 (W2 m ρ c) (Proc.devRef .tc main_v29) = _
  after_results_simp
  rfl

set_option maxHeartbeats 4000000 in
/-- No host operation before the first call writes the first bias vector. -/
theorem W3_arg3 (c : Dev nD) : W3 m ρ c (Proc.devRef .tc main_arg3) = m ((c : Thread nD τ).loc main_arg3) := by
  show StableHlo.after hostOps0_2 (W2 m ρ c) (Proc.devRef .tc main_arg3) = _
  after_results_simp

set_option maxHeartbeats 4000000 in
/-- No host operation before the first call writes the second weight matrix. -/
theorem W3_arg4 (c : Dev nD) : W3 m ρ c (Proc.devRef .tc main_arg4) = m ((c : Thread nD τ).loc main_arg4) := by
  show StableHlo.after hostOps0_2 (W2 m ρ c) (Proc.devRef .tc main_arg4) = _
  after_results_simp

set_option maxHeartbeats 4000000 in
/-- No host operation before the first call writes the second bias vector. -/
theorem W3_arg5 (c : Dev nD) : W3 m ρ c (Proc.devRef .tc main_arg5) = m ((c : Thread nD τ).loc main_arg5) := by
  show StableHlo.after hostOps0_2 (W2 m ρ c) (Proc.devRef .tc main_arg5) = _
  after_results_simp

/-! ## What the second call finds -/

set_option maxHeartbeats 4000000 in
/-- The aggregated array the second call finds is the shared aggregation of the first call's result and the edge list. -/
theorem V5_v43 (c : Dev nD) :
    V5 m ρ c main_v43 = Cert.Gcn.aggOf (F := F) (V4 m ρ c main_v30) (m ((c : Thread nD τ).loc main_arg1)) := by
  show StableHlo.after hostOps1 (W4 m ρ c) (Proc.devRef .tc main_v43) = _
  after_results_simp
  rw [W4_of_ne m ρ c main_v3 (by decide), W4_of_ne m ρ c main_v6 (by decide), W4_of_ne m ρ c main_v29 (by decide)]
  rw [W3_v3 m ρ c, W3_v6 m ρ c, W3_v29 m ρ c]
  rfl

set_option maxHeartbeats 4000000 in
/-- The first bias as a one-row matrix. -/
theorem V5_v44 (c : Dev nD) :
    V5 m ρ c main_v44 = shapeCast S1x3 (m ((c : Thread nD τ).loc main_arg3)) shapeCasts_S3_S1x3 := by
  show StableHlo.after hostOps1 (W4 m ρ c) (Proc.devRef .tc main_v44) = _
  after_results_simp
  rw [W4_of_ne m ρ c main_arg3 (by decide), W3_arg3 m ρ c]
  rfl

set_option maxHeartbeats 4000000 in
/-- The second bias as a one-row matrix. -/
theorem V5_v45 (c : Dev nD) :
    V5 m ρ c main_v45 = shapeCast S1x7 (m ((c : Thread nD τ).loc main_arg5)) shapeCasts_S7_S1x7 := by
  show StableHlo.after hostOps1 (W4 m ρ c) (Proc.devRef .tc main_v45) = _
  after_results_simp
  rw [W4_of_ne m ρ c main_arg5 (by decide), W3_arg5 m ρ c]
  rfl

set_option maxHeartbeats 4000000 in
/-- The second call finds the second weight matrix as launched. -/
theorem V5_arg4 (c : Dev nD) : V5 m ρ c main_arg4 = m ((c : Thread nD τ).loc main_arg4) := by
  show StableHlo.after hostOps1 (W4 m ρ c) (Proc.devRef .tc main_arg4) = _
  after_results_simp
  rw [W4_of_ne m ρ c main_arg4 (by decide)]
  exact W3_arg4 m ρ c

end Cert.KernelIdeal.HostVal

end
-- ==== Proof.Bridge.lean ====
/-
  The reference's two results are the three dense stages composed with the shared aggregation. Its product
  dot_general(x, W) is x·W index by index (the same sum over the contracted coordinate); its first result adds the bias,
  broadcast in two steps, to the aggregated array and takes the maximum with a broadcast zero, which at (r, q) is
  max (agg[r, q] + b[q], 0); its second result is dot_general(h, W') plus the second bias broadcast in two steps, which at
  (r, q) is Σ_k h[r, k] · W'[k, q] + b'[q]. A bias vector cast to a one-row matrix reads b[q] at (0, q).
-/
import proofs.«120873_j31722628448491_1_alg».proof.Proof.Spec
import proofs.«120873_j31722628448491_1_alg».proof.Proof.Agg

noncomputable section

namespace Cert.Gcn.Bridge

open Cert.ReferenceIdeal Cert.ReferenceIdeal.ReadP Idealize.ShloMosaic Idealize.ShloMosaic.ValueIdx
open Cert.LibDenseRows Cert.Gcn.Spec Cert.Gcn

/-- The reference's product is x·W, index by index. -/
theorem xwOf_eq (x0 : (⟨S100000x512, .f32⟩ : BufTy).Contents (Elt Ideal)) (x2 : (⟨S512x3, .f32⟩ : BufTy).Contents (Elt Ideal)) :
    xwOf x0 x2 = val_main_v30 (F := Ideal) x0 x2 := by
  funext i
  rw [val_main_v30_apply]
  unfold xwOf
  refine Finset.sum_congr rfl fun k _ => ?_
  have el : (ix2 (n0 := 100000) (n1 := 512) ⟨(i 0).val, (i 0).isLt⟩ k) = lidx_main_v30 i k :=
    funext fun a => by match a with | ⟨0, _⟩ => rfl | ⟨1, _⟩ => rfl
  have er : (ix2 (n0 := 512) (n1 := 3) k ⟨(i 1).val, (i 1).isLt⟩) = ridx_main_v30 i k :=
    funext fun a => by match a with | ⟨0, _⟩ => rfl | ⟨1, _⟩ => rfl
  rw [el, er]

/-- The reference's first result is the rectified layer of the shared aggregation of its product and the bias as a
    one-row matrix. -/
theorem h_eq (x0 : (⟨S100000x512, .f32⟩ : BufTy).Contents (Elt Ideal)) (x1 : (⟨S2x3200000, .i32⟩ : BufTy).Contents (Elt Ideal))
    (x2 : (⟨S512x3, .f32⟩ : BufTy).Contents (Elt Ideal)) (x3 : (⟨S3, .f32⟩ : BufTy).Contents (Elt Ideal))
    (h : (Sh1 3).ShapeCasts (Sh2 1 3)) :
    hOf (aggOf (F := Ideal) (val_main_v30 (F := Ideal) x0 x2) x1) (shapeCast (Sh2 1 3) x3 h) = val_main_v47 (F := Ideal) x0 x1 x2 x3 := by
  funext i
  rw [val_main_v47_apply, val_main_v46_apply, val_main_v45_apply, val_main_v44_apply, val_main_call1_v0_apply, val_main_call1_cst_apply]
  unfold hOf
  rw [shapeCast_a_1a_apply]
  have e : (ix1 (n := 3) ⟨(i 1).val, (i 1).isLt⟩) = idx_main_v44 (idx_main_v45 i) :=
    funext fun a => by match a with | ⟨0, _⟩ => rfl
  rw [e]
  rfl

/-- The reference's second result is the classifier of the same aggregation, the weights and the two biases as
    one-row matrices. -/
theorem z_eq (x0 : (⟨S100000x512, .f32⟩ : BufTy).Contents (Elt Ideal)) (x1 : (⟨S2x3200000, .i32⟩ : BufTy).Contents (Elt Ideal))
    (x2 : (⟨S512x3, .f32⟩ : BufTy).Contents (Elt Ideal)) (x3 : (⟨S3, .f32⟩ : BufTy).Contents (Elt Ideal))
    (x4 : (⟨S3x7, .f32⟩ : BufTy).Contents (Elt Ideal)) (x5 : (⟨S7, .f32⟩ : BufTy).Contents (Elt Ideal))
    (h : (Sh1 3).ShapeCasts (Sh2 1 3)) (h' : (Sh1 7).ShapeCasts (Sh2 1 7)) :
    zOf (aggOf (F := Ideal) (val_main_v30 (F := Ideal) x0 x2) x1) (shapeCast (Sh2 1 3) x3 h) x4 (shapeCast (Sh2 1 7) x5 h')
      = val_main_v51 (F := Ideal) x0 x1 x2 x3 x4 x5 := by
  funext i
  rw [val_main_v51_apply, val_main_v48_apply, val_main_v50_apply, val_main_v49_apply]
  unfold zOf
  rw [shapeCast_a_1a_apply, h_eq x0 x1 x2 x3 h]
  have e : (ix1 (n := 7) ⟨(i 1).val, (i 1).isLt⟩) = idx_main_v49 (idx_main_v50 i) :=
    funext fun a => by match a with | ⟨0, _⟩ => rfl
  have el : ∀ k : Fin 3, (ix2 (n0 := 100000) (n1 := 3) ⟨(i 0).val, (i 0).isLt⟩ k) = lidx_main_v48 i k :=
    fun k => funext fun a => by match a with | ⟨0, _⟩ => rfl | ⟨1, _⟩ => rfl
  have er : ∀ k : Fin 3, (ix2 (n0 := 3) (n1 := 7) k ⟨(i 1).val, (i 1).isLt⟩) = ridx_main_v48 i k :=
    fun k => funext fun a => by match a with | ⟨0, _⟩ => rfl | ⟨1, _⟩ => rfl
  simp only [e, el, er]
  rfl

end Cert.Gcn.Bridge

end
-- ==== Proof.KFinal.lean ====
/-
  The kernel's two results as functions of its arguments, at the extended reals. The last boundary's contents of the
  two result arrays are the second call's write-backs folded: the rectified layer and the classifier of what that call
  finds. It finds the shared aggregation of the first call's result and the edge list, the two biases as one-row
  matrices and the second weight matrix as launched; the first call's result is x·W of x and W as launched. Composed,
  and with the reference's product and two results read the same way, the kernel's results are the reference's stages
  of the kernel's own arguments.
-/
import proofs.«120873_j31722628448491_1_alg».proof.Proof.KRun
import proofs.«120873_j31722628448491_1_alg».proof.Proof.KVal0
import proofs.«120873_j31722628448491_1_alg».proof.Proof.KVal1
import proofs.«120873_j31722628448491_1_alg».proof.Proof.KHost
import proofs.«120873_j31722628448491_1_alg».proof.Proof.Bridge

set_option maxRecDepth 16384

noncomputable section

namespace Cert.KernelIdeal.Final

open Cert.KernelIdeal Cert.KernelIdeal.Gen Idealize.ShloMosaic Idealize.ShloMosaic.TcCoe Idealize.SL.Sem
open Cert.Gcn.Spec Cert.Gcn

variable (m : (ℓ : Loc nD τ sig) → Buf (Elt Ideal) ℓ) (ρ : Dev nD → PrngReg)

/-- The first call's result array, as the host operations after it find it, is x·W of the arguments. -/
theorem xw_val (c : Dev nD) :
    V4 m ρ c main_v30 = xwOf (m ((c : Thread nD τ).loc main_arg0)) (m ((c : Thread nD τ).loc main_arg2)) := by
  refine (W4_arr m ρ c 2).trans ((Cert.KernelIdeal.Val.final0 (V3 m ρ) c).trans ?_)
  rw [Cert.KernelIdeal.HostVal.V3_arg0 m ρ c, Cert.KernelIdeal.HostVal.V3_arg2 m ρ c]

/-- The aggregated array the second call finds, from the arguments. -/
theorem agg_val (c : Dev nD) :
    V5 m ρ c main_v43 = aggOf (F := Ideal) (Cert.ReferenceIdeal.ReadP.val_main_v30 (F := Ideal) (m ((c : Thread nD τ).loc main_arg0)) (m ((c : Thread nD τ).loc main_arg2)))
      (m ((c : Thread nD τ).loc main_arg1)) := by
  rw [Cert.KernelIdeal.HostVal.V5_v43 m ρ c, xw_val m ρ c, Cert.Gcn.Bridge.xwOf_eq]

/-- The first result at the last boundary is the reference's first stage of the kernel's arguments. -/
theorem res0 (c : Dev nD) :
    W6 m ρ c (Proc.devRef .tc main_v46_0)
      = Cert.ReferenceIdeal.ReadP.val_main_v47 (F := Ideal) (m ((c : Thread nD τ).loc main_arg0)) (m ((c : Thread nD τ).loc main_arg1))
          (m ((c : Thread nD τ).loc main_arg2)) (m ((c : Thread nD τ).loc main_arg3)) := by
  refine (W6_arr m ρ c 4).trans ((Cert.KernelIdeal.Val1.final4 (V5 m ρ) c).trans ?_)
  rw [agg_val m ρ c, Cert.KernelIdeal.HostVal.V5_v44 m ρ c]
  exact Cert.Gcn.Bridge.h_eq _ _ _ _ _

/-- The second result at the last boundary is the reference's second stage of the kernel's arguments. -/
theorem res1 (c : Dev nD) :
    W6 m ρ c (Proc.devRef .tc main_v46_1)
      = Cert.ReferenceIdeal.ReadP.val_main_v51 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W6_arr m ρ c 5).trans ((Cert.KernelIdeal.Val1.final5 (V5 m ρ) c).trans ?_)
  rw [agg_val m ρ c, Cert.KernelIdeal.HostVal.V5_v44 m ρ c, Cert.KernelIdeal.HostVal.V5_arg4 m ρ c, Cert.KernelIdeal.HostVal.V5_v45 m ρ c]
  exact Cert.Gcn.Bridge.z_eq _ _ _ _ _ _ _ _

/-- The kernel's run, read: each result at the reference's stage of the kernel's own arguments, the arguments unchanged. -/
theorem run : θ_run defs (onTc (τ := τ) (main (F := Ideal))) ⟨m, fun _ => 0, ρ⟩ (fun r => ∀ c : Dev nD,
      r.2.mem ((c.tc : Thread nD τ).loc main_v46_0)
        = Cert.ReferenceIdeal.ReadP.val_main_v47 (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v46_1)
        = Cert.ReferenceIdeal.ReadP.val_main_v51 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (res0 m ρ c), (h c).2.1.trans (res1 m ρ c), (h c).2.2⟩)
    (Cert.KernelIdeal.KRun.run (F := Ideal) m ρ)

end Cert.KernelIdeal.Final

end
-- ==== Proof.lean ====
/-
  A graph-convolution layer with a linear classifier on top, certified equal to its reference over the extended reals.
  Both programs add self loops to the edge list, weight each edge by deg[src]^(-1/2) · deg[dst]^(-1/2), and aggregate the
  transformed features x·W over the edges into each target node by the same host operations; they then add a bias,
  rectify, and apply a second dense layer. The kernel computes x·W and the rectified and classified rows in two
  pallas_calls tiled over 50 blocks of 2000 nodes, with a change of float format before each product; the reference
  computes them by dot_general on whole arrays. At the extended reals a change of float format is the identity and
  both products are the same finite sums, so the kernel's two results are the reference's two results of the same
  arguments, entry by entry. No law beyond that is used, and the precondition is never opened.

  The three frames: the kernel's two are the generated frame certificates; the reference's is its run with the results
  dropped. The idealization rewrote nothing, so `preserves` is trivial.
-/
import proofs.«120873_j31722628448491_1_alg».proof.Defs
import proofs.«120873_j31722628448491_1_alg».proof.Proof.Gen.Kernel
import proofs.«120873_j31722628448491_1_alg».proof.Proof.Gen.Kernel.Frame
import proofs.«120873_j31722628448491_1_alg».proof.Proof.Gen.KernelIdeal
import proofs.«120873_j31722628448491_1_alg».proof.Proof.Gen.KernelIdeal.Frame
import proofs.«120873_j31722628448491_1_alg».proof.Proof.Gen.ReferenceIdeal
import proofs.«120873_j31722628448491_1_alg».proof.Proof.Gen.Pre_finite_inputs
import proofs.«120873_j31722628448491_1_alg».proof.Proof.RefRun
import proofs.«120873_j31722628448491_1_alg».proof.Proof.RefRead
import proofs.«120873_j31722628448491_1_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs, from memories agreeing on the arguments, end with the reference's two stages of those arguments. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v47_eq, (hagree c).1, (hagree c).2.1, (hagree c).2.2.1, (hagree c).2.2.2.1]
  · rw [Cert.ReferenceIdeal.ReadP.val_main_v51_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
